-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S128x128 : Shape := ⟨2, ![128, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S64x4096x128 .f32) (main_arg1 : FVec F S128x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S64x4096x128 : Shape := ⟨3, ![64, 4096, 128]⟩
abbrev S128x128 : Shape := ⟨2, ![128, 128]⟩
abbrev S262144x128 : Shape := ⟨2, ![262144, 128]⟩
abbrev S16384x128 : Shape := ⟨2, ![16384, 128]⟩
abbrev S4096x128 : Shape := ⟨2, ![4096, 128]⟩

abbrev nBuf : Space → Nat
  | .hbm => 5
  | .vmem => 5
  | .smem => 0
  | _ => 0

abbrev bufTy : (tb : Table) → Fin (tcTables nBuf tb) → BufTy
  | .hbm, ⟨0, _⟩ => ⟨S64x4096x128, .f32⟩
  | .hbm, ⟨1, _⟩ => ⟨S128x128, .f32⟩
  | .hbm, ⟨2, _⟩ => ⟨S262144x128, .f32⟩
  | .hbm, ⟨3, _⟩ => ⟨S262144x128, .f32⟩
  | .hbm, ⟨4, _⟩ => ⟨S64x4096x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S16384x128, .f32⟩
  | .local _ .vmem, ⟨4, _⟩ => ⟨S16384x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c4096_i32 : BitVec 32 := 4096#32
  let v1 : BitVec 32 := Scalar.muli c0_i32 c4096_i32
  v1
def k0_off1 (c0_i32 : BitVec 32) : Fin 2 → Nat :=
  let c4096_i32 : BitVec 32 := 4096#32
  let v1 : BitVec 32 := Scalar.muli c0_i32 c4096_i32
  let v2 : BitVec 32 := v1
  let v3 : Index := Scalar.indexCast v2
  let c0_1 : Index := 0#32
  ![v3.toNat, 0]
def k0_mult2 : BitVec 32 :=
  let c1_i32 : BitVec 32 := 1#32
  let c4096_i32_3 : BitVec 32 := 4096#32
  let v9 : BitVec 32 := Scalar.muli c1_i32 c4096_i32_3
  v9
def k0_mult3 : BitVec 32 :=
  let c2_i32 : BitVec 32 := 2#32
  let c4096_i32_7 : BitVec 32 := 4096#32
  let v17 : BitVec 32 := Scalar.muli c2_i32 c4096_i32_7
  v17
def k0_mult4 : BitVec 32 :=
  let c3_i32 : BitVec 32 := 3#32
  let c4096_i32_11 : BitVec 32 := 4096#32
  let v25 : BitVec 32 := Scalar.muli c3_i32 c4096_i32_11
  v25
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x4096x128_S262144x128 : S64x4096x128.ShapeCasts S262144x128
  inb_S128x128_S128x128_0_0 : ∀ a, (![0, 0] : Fin 2 → Nat) a + S128x128.size a ≤ S128x128.size a
  h_S128x128 : 0 < S128x128.numel
  h_S4096x128 : 0 < S4096x128.numel
  shapeCasts_S4096x128_S4096x128 : S4096x128.ShapeCasts S4096x128
  shapeCasts_S262144x128_S64x4096x128 : S262144x128.ShapeCasts S64x4096x128
  dot_S4096x128_S128x128_S4096x128_1_0_0_1_n_n_wf : DotDims.WF S4096x128 S128x128 S4096x128 [1] [0] [0] [1] [] []
  hrank0 : 0 < grid0.rank
  k0_mult1_dvd : 4096 ∣ k0_mult1.toNat
  k0_off1_inb : ∀ (r : Fin 4), ∀ a, (k0_off1 (BitVec.ofNat 32 r.val)) a + S4096x128.size a ≤ S16384x128.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S262144x128.size a
  hwx0_2 : ∀ i : grid0.Coords, EltTy.bits .f32 = 32 ∨ (Rect.block (s := S262144x128) S16384x128.size (cc0_transform_2 i) (hinb0_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S128x128 : Shape := ⟨2, ![128, 128]⟩

abbrev nBuf : Space → Nat
  | .hbm => 3
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S128x128, .f32⟩
  | .hbm, ⟨2, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S64x4096x128_S128x128_S64x4096x128_2_0_01_1_n_n_wf : DotDims.WF S64x4096x128 S128x128 S64x4096x128 [2] [0] [0, 1] [1] [] []

variable [Facts₀]

def dot_S64x4096x128_S128x128_S64x4096x128_2_0_01_1_n_n : DotDims S64x4096x128 S128x128 S64x4096x128 where
  lhsContracting := [2]
  rhsContracting := [0]
  lhsNonContracting := [0, 1]
  rhsNonContracting := [1]
  lhsBatch := []
  rhsBatch := []
  wf := dot_S64x4096x128_S128x128_S64x4096x128_2_0_01_1_n_n_wf

class Facts : Prop extends Facts₀ where

variable [Facts]
-- ==== Proof.ChunkProduct.lean ====
/-
  One chunk of the embedding product. The kernel multiplies a chunk of 4096 rows of the flattened input by the
  128 × 128 table with a matrix product into a zero accumulator; over the extended reals that product, at row r
  and column c, is the plain sum  Σ_k x[r, k] · e[k, c]  over the 128 contracted positions: the zero accumulator
  adds nothing, and no rounding or grouping of the sum is left. The function `rowsTable` names that sum for any
  number of rows, so that a chunk, a block of four chunks, and the whole flattened array are all read by it.
-/
import proofs.«421064_j61366492725854_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Embed

open Idealize.ShloMosaic Idealize.ShloMosaic.ValueIdx Cert.KernelIdeal Cert.KernelIdeal.Gen

/-- The product of `R` rows `x` with the table `e`: entry (r, c) is the sum over k of x[r, k] · e[k, c]. -/
def rowsTable {R : Nat} (x : (⟨2, ![R, 128]⟩ : Shape).Idx → EReal) (e : (⟨2, ![128, 128]⟩ : Shape).Idx → EReal) :
    (⟨2, ![R, 128]⟩ : Shape).Idx → EReal :=
  fun j => ∑ k : Fin 128, x (ix2 (j 0) k) * e (ix2 k (j 1))

/-! The operand positions of the chunk's matrix product, coordinate by coordinate: the left operand is read at
    (output row, contracted position), the right one at (contracted position, output column). -/

theorem lhs_row (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_contracted (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_contracted (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_column (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The chunk's matrix product into the zero accumulator, at (r, c), is the sum over k of x[r, k] · e[k, c]. -/
theorem chunk_product_apply (e : FVec Ideal S128x128 .f32) (x : FVec Ideal S4096x128 .f32) (j : S4096x128.Idx) :
    matmul dot_S4096x128_S128x128_S4096x128_1_0_0_1_n_n none x e (constant (F := Ideal) S4096x128 .f32 0x00000000#32) j
      = rowsTable (R := 4096) x e j := by
  unfold rowsTable
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx j ((ValueIdx.contrEquiv1 dot_S4096x128_S128x128_S4096x128_1_0_0_1_n_n 128 rfl rfl).symm k) = ix2 (j 0) k := funext fun a => Fin.ext (by
    match a with
    | ⟨0, _⟩ => exact lhs_row _ _
    | ⟨1, _⟩ => exact (lhs_contracted _ _).trans hk)
  have er : dot_S4096x128_S128x128_S4096x128_1_0_0_1_n_n.rhsIdx j ((ValueIdx.contrEquiv1 dot_S4096x128_S128x128_S4096x128_1_0_0_1_n_n 128 rfl rfl).symm k) = ix2 k (j 1) := funext fun a => Fin.ext (by
    match a with
    | ⟨0, _⟩ => exact (rhs_contracted _ _).trans hk
    | ⟨1, _⟩ => exact rhs_column _ _)
  rw [el, er]
  rfl

/-- Each of the body's four stored values is that product of the chunk it loaded with the table: the identity
    cast of the loaded chunk drops out. -/
theorem pay1_eq (e : Vec Ideal S128x128 .f32) (x : Vec Ideal S4096x128 .f32) :
    k0_pay1 (F := Ideal) e x = rowsTable (R := 4096) x e := by
  funext j
  unfold k0_pay1
  rw [shapeCast_self]
  exact chunk_product_apply e x j
theorem pay2_eq (e : Vec Ideal S128x128 .f32) (x : Vec Ideal S4096x128 .f32) :
    k0_pay2 (F := Ideal) e x = rowsTable (R := 4096) x e := by
  funext j
  unfold k0_pay2
  rw [shapeCast_self]
  exact chunk_product_apply e x j
theorem pay3_eq (e : Vec Ideal S128x128 .f32) (x : Vec Ideal S4096x128 .f32) :
    k0_pay3 (F := Ideal) e x = rowsTable (R := 4096) x e := by
  funext j
  unfold k0_pay3
  rw [shapeCast_self]
  exact chunk_product_apply e x j
theorem pay4_eq (e : Vec Ideal S128x128 .f32) (x : Vec Ideal S4096x128 .f32) :
    k0_pay4 (F := Ideal) e x = rowsTable (R := 4096) x e := by
  funext j
  unfold k0_pay4
  rw [shapeCast_self]
  exact chunk_product_apply e x j

end Cert.KernelIdeal.Embed

end
-- ==== Proof.BlockProduct.lean ====
/-
  One block of the embedding product. At a grid point the body fills its output block of 16384 rows with four
  stores, the r-th holding the product of rows [4096·r, 4096·r + 4096) of the input block with the table. Row p of
  the block lies in exactly one of those four chunks, and the entry there is  Σ_k x[p, k] · e[k, c]  whichever
  chunk it is: the product of a chunk of rows is that chunk of rows of the product. So the four stores together
  leave the product of the whole input block with the table.
-/
import proofs.«421064_j61366492725854_3_alg».proof.Proof.Gen.KernelIdeal.Frame
import proofs.«421064_j61366492725854_3_alg».proof.Proof.ChunkProduct
import Idealize.ShloMosaic.Lib.Pipeline.Value
import Idealize.ShloMosaic.Lib.Tactic

set_option maxRecDepth 16384

noncomputable section

namespace Cert.KernelIdeal.Embed

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-- The product of the 4096 rows of a block that start at row `off` is those rows of the block's product: row y of
    the chunk is row off + y of the block, and the contracted position and the column are untouched. -/
theorem rowsTable_rows (x : Vec Ideal S16384x128 .f32) (e : Vec Ideal S128x128 .f32) (off : Nat)
    (inb : ∀ a, (![off, 0] : Fin 2 → Nat) a + (![4096, 128] : Fin 2 → Nat) a ≤ S16384x128.size a)
    (y : S4096x128.Idx) :
    rowsTable (R := 4096) (View.ld x (Rect.unit (s := S16384x128) ![off, 0] ![4096, 128] inb)) e y
      = rowsTable (R := 16384) x e ((Rect.unit (s := S16384x128) ![off, 0] ![4096, 128] inb).emb y) := by
  unfold rowsTable
  refine Finset.sum_congr rfl fun k _ => ?_
  have hrow : (Rect.unit (s := S16384x128) ![off, 0] ![4096, 128] inb).idx (ix2 (y 0) k)
      = ix2 ((Rect.unit (s := S16384x128) ![off, 0] ![4096, 128] inb).emb y 0) k := by
    funext a; apply Fin.ext
    match a with
    | ⟨0, _⟩ => rfl
    | ⟨1, _⟩ => show 0 + 1 * k.val = k.val; omega
  have hcol : (Rect.unit (s := S16384x128) ![off, 0] ![4096, 128] inb).emb y 1 = y 1 :=
    Fin.ext (by show 0 + 1 * (y 1).val = (y 1).val; omega)
  show x ((Rect.unit (s := S16384x128) ![off, 0] ![4096, 128] inb).idx (ix2 (y 0) k)) * e (ix2 k (y 1)) = _
  rw [hrow, hcol]
  rfl

/-- What the body leaves in its output block, whatever staging buffers it runs on: the product of the input
    block `x` with the table `e`. Each of the four stored pieces is the block's product read through the piece's
    own rectangle, and the pieces tile the block. -/
theorem block_product (c : Dev nD) (i : grid0.Coords) (arg1 : Memref sig .tc .vmem S16384x128 .f32) (harg1 : arg1.IsWhole)
    (arg2 : Memref sig .tc .vmem S128x128 .f32) (harg2 : arg2.IsWhole) (arg3 : Memref sig .tc .vmem S16384x128 .f32) (harg3 : arg3.IsWhole)
    (x : Vec Ideal S16384x128 .f32) (e : Vec Ideal S128x128 .f32) :
    out0_A_2 c i arg1 harg1 arg2 harg2 arg3 harg3 x e = rowsTable (R := 16384) x e := by
  unfold out0_A_2
  rw [View.read_writes_eq_canon _ _ _ (cover0_A_2 c i arg1 harg1 arg2 harg2 arg3 harg3 x e)]
  funext y
  refine View.canon_apply_of_pieces (rowsTable (R := 16384) x e) _ ?_ y (cover0_A_2 c i arg1 harg1 arg2 harg2 arg3 harg3 x e y)
  unfold kernelRun0_A
  dsimp only
  sl_unfold_words
  intro p hp
  simp only [List.mem_cons, List.mem_nil_iff, or_false] at hp
  rcases hp with rfl | rfl | rfl | rfl
  · intro z
    simp only [View.readAt_eq_ld, harg1.read_unread, harg2.read_unread, View.ld_unit_zero (S := S128x128) zero_offsets]
    rw [pay4_eq]
    exact rowsTable_rows x e 12288 _ z
  · intro z
    simp only [View.readAt_eq_ld, harg1.read_unread, harg2.read_unread, View.ld_unit_zero (S := S128x128) zero_offsets]
    rw [pay3_eq]
    exact rowsTable_rows x e 8192 _ z
  · intro z
    simp only [View.readAt_eq_ld, harg1.read_unread, harg2.read_unread, View.ld_unit_zero (S := S128x128) zero_offsets]
    rw [pay2_eq]
    exact rowsTable_rows x e 4096 _ z
  · intro z
    simp only [View.readAt_eq_ld, harg1.read_unread, harg2.read_unread, View.ld_unit_zero (S := S128x128) zero_offsets]
    rw [pay1_eq]
    exact rowsTable_rows x e 0 _ z

end Cert.KernelIdeal.Embed

end
-- ==== Proof.ArrayProduct.lean ====
/-
  The whole flattened product. The sixteen grid points write the sixteen blocks of 16384 rows of the output
  array, block t being the product of block t of the flattened input with the table (the table's window never
  moves). Row i of the flattened array lies in block i / 16384, so every entry is written, and the output array
  ends holding  Σ_k X[i, k] · E[k, c]  at (i, c), where X is the input flattened from [64, 4096, 128] to
  [262144, 128] before the region and E the table. After the region the array is laid out again as
  [64, 4096, 128]; that is the program's result.
-/
import proofs.«421064_j61366492725854_3_alg».proof.Proof.Gen.KernelIdeal.Frame
import proofs.«421064_j61366492725854_3_alg».proof.Proof.BlockProduct
import Idealize.ShloMosaic.Lib.Pipeline.Value
import Idealize.ShloMosaic.Lib.StableHlo.Run

set_option maxRecDepth 16384

noncomputable section

namespace Cert.KernelIdeal.Embed

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The product of the flattened input, as the region finds it, with the table. -/
def flatProduct (c : Dev nD) : Vec Ideal S262144x128 .f32 :=
  rowsTable (R := 262144) (V m c main_v0) (V m c main_arg1)

/-- The input block and the table block at a grid point, at their literal shapes. -/
abbrev inputBlock (c : Dev nD) (t : Fin cfg0.N) : Vec Ideal S16384x128 .f32 := iblk m c 0 t
abbrev tableBlock (c : Dev nD) (t : Fin cfg0.N) : Vec Ideal S128x128 .f32 := iblk m c 1 t

/-- Where the three windows sit at point t: the input's and the output's blocks are block t along the rows, the
    table's block is the whole table. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's output block. -/
theorem point_of_block : ∀ q : Fin 16, ∃ t : Fin cfg0.N, win0_2.index t = ![q.val, 0] :=
  (by decide +kernel : ∀ q : Fin 16, ∃ t : Fin grid0.N, win0_2.index t = ![q.val, 0])

/-- What the body leaves at point t is the product of the point's input block with the table block. -/
theorem point_product (c : Dev nD) (t : Fin cfg0.N) :
    outsAt0 m c t = rowsTable (R := 16384) (inputBlock m c t) (tableBlock m c t) :=
  block_product c (grid0.coords t) (ms0_0 t) (hs0_0 t) (ms0_1 t) (hs0_1 t) (ms0_2 t) (hs0_2 t) (iblk m c 0 t) (iblk m c 1 t)

/-- What point t writes back is block t of the flattened product: row y of the input block is row 16384·t + y
    of the flattened input, the table block is the table, and the output block sits at the same rows. -/
theorem flushed_block (c : Dev nD) (t : Fin cfg0.N) :
    (dats m 0 c).flushed 2 t = ((cfg0.win 2).blk t).view.read (Elt Ideal) (flatProduct m c) := by
  show (cfg0.win 2).cut (grid0.coords t) ((dats m 0 c).after 2 t) = _
  rw [after0_2, point_product]
  obtain ⟨e0, e1, e2, e3, e4⟩ := block_indices t
  refine funext fun (j : S16384x128.Idx) => ?_
  show rowsTable (R := 16384) (inputBlock m c t) (tableBlock m c t) j = flatProduct m c (((cfg0.win 2).blk t).view.emb j)
  unfold flatProduct rowsTable
  refine Finset.sum_congr rfl fun k _ => ?_
  have hx : inputBlock m c t (ix2 (j 0) k) = V m c main_v0 (ix2 ((((cfg0.win 2).blk t).view.emb j) 0) k) := by
    show V m c main_v0 (((cfg0.win 0).blk t).view.emb (ix2 (j 0) k)) = _
    refine congrArg _ ?_
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 128 + 1 * k.val = k.val; omega
  have he : tableBlock m c t (ix2 k (j 1)) = V m c main_arg1 (ix2 k ((((cfg0.win 2).blk t).view.emb j) 1)) := by
    show V m c main_arg1 (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) hx he

/-- An entry of the output array is in point t's block iff each coordinate is in the block's range on its axis. -/
theorem mem_block (t : Fin cfg0.N) (i : S262144x128.Idx) :
    i ∈ ((cfg0.win 2).blk t).view.set ↔ ∀ a : Fin 2, win0_2.index t a * S16384x128.size a ≤ (i a).val ∧ (i a).val < win0_2.index t a * S16384x128.size a + S16384x128.size a := by
  show i ∈ ((View.whole main_v1).slice (win0_2.rect t)).set ↔ _
  rw [View.set_slice_whole, Rect.mem_set_unit]
  exact Iff.rfl

/-- Every entry of the output array is written back: row i by the point whose block is i / 16384. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ := point_of_block ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 128 ≤ (i 1).val ∧ (i 1).val < win0_2.index t (1 : Fin 2) * 128 + 128; omega

/-- So the output array ends holding the flattened product. -/
theorem output_array (c : Dev nD) : (dats m 0 c).arrAt 2 cfg0.N = flatProduct m c :=
  (dats m 0 c).arrAt_eq_of_cover 2 (flatProduct m c) (fun t _ => flushed_block m c t) covered

/-- The region finds the input flattened: [64, 4096, 128] laid out as [262144, 128]. -/
theorem flat_input (c : Dev nD) :
    (V m c main_v0 : S262144x128.Idx → EReal)
      = shapeCast S262144x128 (m ((c : Thread nD τ).loc main_arg0)) shapeCasts_S64x4096x128_S262144x128 := by
  show StableHlo.after hostOps0 (fun b => m (c, b)) (Proc.devRef .tc main_v0) = _
  after_results
  rfl

/-- The program's result: the flattened product laid out again as [64, 4096, 128]. -/
theorem result_eq (c : Dev nD) :
    (Pipeline.afterTail₀ cfgs (dats m) 0 (V0 m) [hostOps1] c main_v2 : S64x4096x128.Idx → EReal)
      = shapeCast S64x4096x128 (flatProduct m c) shapeCasts_S262144x128_S64x4096x128 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = flatProduct m c :=
    (Pipeline.withArrays_arr spec0 launch0.win.arr_inj c (V0 m c) (fun w => (dats m 0 c).arrAt w cfg0.N) 2).trans (output_array m c)
  rw [hw]
  rfl

/-- The program's run, read: every weakly fair execution ends with the result at the flattened product laid out
    as [64, 4096, 128], and both arguments as they were. -/
theorem run : θ_run defs (onTc (τ := τ) (main (F := Ideal))) ⟨m, fun _ => 0, ρ⟩ fun r => ∀ c : Dev nD,
      r.2.mem ((c.tc : Thread nD τ).loc main_v2) = shapeCast S64x4096x128 (flatProduct m c) shapeCasts_S262144x128_S64x4096x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Embed

end
-- ==== Proof.EmbeddedSequence.lean ====
/-
  The embedding lookup as one function of its two arguments. The reference contracts the last axis of the input
  [64, 4096, 128] with the first axis of the table [128, 128]: its entry (b, s, c) is  Σ_k x[b, s, k] · e[k, c].
  The kernel flattens the batch and sequence axes into rows, multiplies the rows by the table, and unflattens:
  entry (b, s, c) of its result is entry (4096·b + s, c) of the flattened product, that is
  Σ_k X[4096·b + s, k] · e[k, c], and row 4096·b + s of the flattened input X is row (b, s) of x. The two are the
  same sum, term by term; nothing about the order of summation or about finiteness of the entries is used.
-/
import proofs.«421064_j61366492725854_3_alg».proof.Proof.Gen.ReferenceIdeal.Read
import proofs.«421064_j61366492725854_3_alg».proof.Proof.ArrayProduct
import Idealize.ShloMosaic.Lib.ValueIdx
import Idealize.ShloMosaic.Lib.Pipeline.Value

noncomputable section

namespace Cert.KernelIdeal.Embed

open Idealize.ShloMosaic Idealize.ShloMosaic.TcCoe Idealize.ShloMosaic.ValueIdx Idealize.SL.Sem

/-- The embedded sequence: entry (b, s, c) is the sum over k of x[b, s, k] · e[k, c]. -/
def embedded (x : (⟨3, ![64, 4096, 128]⟩ : Shape).Idx → EReal) (e : (⟨2, ![128, 128]⟩ : Shape).Idx → EReal) :
    (⟨3, ![64, 4096, 128]⟩ : Shape).Idx → EReal :=
  fun i => ∑ k : Fin 128, x (ix3 (i 0) (i 1) k) * e (ix2 k (i 2))

section Kernel

open Cert.KernelIdeal Cert.KernelIdeal.Gen

variable (m : (ℓ : Loc nD τ sig) → Buf (Elt Ideal) ℓ) (ρ : Dev nD → PrngReg)

/-- The kernel's result is the embedded sequence of its two arguments: unflattening reads row 4096·b + s of the
    product, and flattening put row (b, s) of the input there. -/
theorem kernel_result (c : Dev nD) :
    shapeCast S64x4096x128 (flatProduct m c) shapeCasts_S262144x128_S64x4096x128
      = embedded (m ((c.tc : Thread nD τ).loc main_arg0)) (m ((c.tc : Thread nD τ).loc main_arg1)) := by
  funext i
  obtain ⟨b, s, q, rfl⟩ : ∃ (b : Fin 64) (s : Fin 4096) (q : Fin 128), i = ix3 b s q := ⟨i 0, i 1, i 2, eq_ix3 i⟩
  have hb : b.val < 64 := b.isLt
  have hs : s.val < 4096 := s.isLt
  have hrow : b.val * 4096 + s.val < 262144 := by omega
  have hout : shapeCast S64x4096x128 (flatProduct m c) shapeCasts_S262144x128_S64x4096x128 (ix3 b s q)
      = flatProduct m c (ix2 (⟨b.val * 4096 + s.val, hrow⟩ : Fin 262144) q) :=
    shapeCast_apply (flatProduct m c) shapeCasts_S262144x128_S64x4096x128 (ix3 b s q)
      (ix2 (⟨b.val * 4096 + s.val, hrow⟩ : Fin 262144) q) (by
        show (S262144x128.rowMajor (ix2 (⟨b.val * 4096 + s.val, hrow⟩ : Fin 262144) q)).val = (S64x4096x128.rowMajor (ix3 b s q)).val
        rw [Shape.rowMajor_val_two, Shape.rowMajor_val_three]; rfl)
  have hin : ∀ k : Fin 128, V m c main_v0 (ix2 (⟨b.val * 4096 + s.val, hrow⟩ : Fin 262144) k)
      = m ((c.tc : Thread nD τ).loc main_arg0) (ix3 b s k) := fun k => by
    rw [flat_input]
    exact shapeCast_apply (m ((c.tc : Thread nD τ).loc main_arg0)) shapeCasts_S64x4096x128_S262144x128
      (ix2 (⟨b.val * 4096 + s.val, hrow⟩ : Fin 262144) k) (ix3 b s k) (by
        show (S64x4096x128.rowMajor (ix3 b s k)).val = (S262144x128.rowMajor (ix2 (⟨b.val * 4096 + s.val, hrow⟩ : Fin 262144) k)).val
        rw [Shape.rowMajor_val_two, Shape.rowMajor_val_three]; rfl)
  rw [hout]
  unfold flatProduct rowsTable embedded
  refine Finset.sum_congr rfl fun k _ => ?_
  exact congrArg₂ (fun (u v : EReal) => u * v) (hin k) (congrFun (V_main_arg1 m c) (ix2 k q))

/-- The kernel's run with its result named by that function. -/
theorem kernel_run : θ_run defs (onTc (τ := τ) (main (F := Ideal))) ⟨m, fun _ => 0, ρ⟩ fun r => ∀ c : Dev nD,
      r.2.mem ((c.tc : Thread nD τ).loc main_v2) = embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (kernel_result m c), (h c).2⟩) (run m ρ)

end Kernel

/-- The reference's contraction is the embedded sequence: its left operand is read at (b, s, k) and its right
    one at (k, c). -/
theorem reference_result (x : (⟨Cert.ReferenceIdeal.S64x4096x128, .f32⟩ : BufTy).Contents (Elt Ideal))
    (e : (⟨Cert.ReferenceIdeal.S128x128, .f32⟩ : BufTy).Contents (Elt Ideal)) :
    Cert.ReferenceIdeal.Read.val_main_v0 (F := Ideal) x e = embedded x e := by
  funext i
  have hl : ∀ k : Fin 128, Cert.ReferenceIdeal.Read.lidx_main_v0 i k = ix3 (i 0) (i 1) k := fun k =>
    funext fun a => Fin.ext (by match a with | ⟨0, _⟩ => rfl | ⟨1, _⟩ => rfl | ⟨2, _⟩ => rfl)
  have hr : ∀ k : Fin 128, Cert.ReferenceIdeal.Read.ridx_main_v0 i k = ix2 k (i 2) := fun k =>
    funext fun a => Fin.ext (by match a with | ⟨0, _⟩ => rfl | ⟨1, _⟩ => rfl)
  rw [Cert.ReferenceIdeal.Read.val_main_v0_apply]
  unfold embedded
  refine Finset.sum_congr rfl fun k _ => ?_
  rw [hl k, hr k]
  rfl

end Cert.KernelIdeal.Embed

end
-- ==== Proof.lean ====
/-
  An embedding lookup written as a matrix product, against the contraction it stands for.

  The kernel takes an input x of shape [64, 4096, 128] and a table e of shape [128, 128], flattens batch and
  sequence into 262144 rows, and on a grid of sixteen points multiplies blocks of 16384 rows by the table, each
  block in four chunks of 4096 rows, every chunk a matrix product into a zero accumulator; the result is laid
  out again as [64, 4096, 128]. The reference is the contraction  out[b, s, c] = Σ_k x[b, s, k] · e[k, c].

  Over the extended reals a matrix product into a zero accumulator is that plain sum, so a chunk, a block and the
  whole flattened array all hold  Σ_k X[row, k] · e[k, c]; the chunks tile a block and the blocks tile the array,
  and row 4096·b + s of the flattened input is row (b, s) of x. Both programs therefore end with the same
  function of their arguments, entry by entry and term by term. The equality uses no algebraic law beyond
  0 + a = a, so it needs neither finiteness of the inputs nor any reordering of a sum.

  The idealized kernel is the kernel's own text read over the extended reals: no operation was rewritten, and the
  statement relating the two is trivial. Each program runs to completion with its arguments unchanged: the two
  kernels by their launch-and-body frames, the reference by its straight-line run.
-/
import proofs.«421064_j61366492725854_3_alg».proof.Defs
import proofs.«421064_j61366492725854_3_alg».proof.Proof.Gen.Kernel
import proofs.«421064_j61366492725854_3_alg».proof.Proof.Gen.Kernel.Skeleton
import proofs.«421064_j61366492725854_3_alg».proof.Proof.Gen.Kernel.Launch
import proofs.«421064_j61366492725854_3_alg».proof.Proof.Gen.Kernel.Points
import proofs.«421064_j61366492725854_3_alg».proof.Proof.Gen.Kernel.Frame
import proofs.«421064_j61366492725854_3_alg».proof.Proof.Gen.KernelIdeal
import proofs.«421064_j61366492725854_3_alg».proof.Proof.Gen.KernelIdeal.Skeleton
import proofs.«421064_j61366492725854_3_alg».proof.Proof.Gen.KernelIdeal.Launch
import proofs.«421064_j61366492725854_3_alg».proof.Proof.Gen.KernelIdeal.Points
import proofs.«421064_j61366492725854_3_alg».proof.Proof.Gen.KernelIdeal.Frame
import proofs.«421064_j61366492725854_3_alg».proof.Proof.Gen.ReferenceIdeal
import proofs.«421064_j61366492725854_3_alg».proof.Proof.Gen.ReferenceIdeal.Run
import proofs.«421064_j61366492725854_3_alg».proof.Proof.Gen.ReferenceIdeal.Read
import proofs.«421064_j61366492725854_3_alg».proof.Proof.Gen.Pre_finite_inputs
import proofs.«421064_j61366492725854_3_alg».proof.Proof.EmbeddedSequence
import Idealize.ShloMosaic.Adequacy
import Idealize.ShloMosaic.Init

noncomputable section

namespace Cert.Proof

open Idealize.ShloMosaic Idealize.SL.Sem Cert.Kernel

/-- The word-level kernel terminates without a fault and leaves both arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is one host operation: it runs, and its arguments are not written. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the two arguments both programs end with  Σ_k x[b, s, k] · e[k, c]  at (b, s, c):
    the kernel through its flattened product, the reference through its contraction. -/
theorem algebraic : Cert.algebraic_KernelIdeal_ReferenceIdeal := by
  intro m ρ m' ρ' _ hagree
  refine ⟨fun c => Cert.KernelIdeal.Embed.embedded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Embed.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, (hagree c).1, (hagree c).2]
  exact Cert.KernelIdeal.Embed.reference_result _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
